-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1x4096 : Shape := ⟨2, ![1, 4096]⟩
abbrev S1024x4096 : Shape := ⟨2, ![1024, 4096]⟩
abbrev S128x1024 : Shape := ⟨2, ![128, 1024]⟩
abbrev S128x4096 : Shape := ⟨2, ![128, 4096]⟩

abbrev nBuf : Space → Nat
  | .hbm => 31
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S1x4096, .f32⟩
  | .hbm, ⟨25, _⟩ => ⟨S1024x4096, .f32⟩
  | .hbm, ⟨26, _⟩ => ⟨S1024x4096, .bf16⟩
  | .hbm, ⟨27, _⟩ => ⟨S1024x4096, .f32⟩
  | .hbm, ⟨28, _⟩ => ⟨S1024x4096, .bf16⟩
  | .hbm, ⟨29, _⟩ => ⟨S8192x1024, .f32⟩
  | .hbm, ⟨30, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  shapeCasts_S4096_S1x4096 : S4096.ShapeCasts S1x4096
  transposes_S4096x1024_S1024x4096_1_0 : S4096x1024.Transposes [1, 0] S1024x4096
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S8192x1024.size a
  hwx0_6 : ∀ i : grid0.Coords, EltTy.bits .f32 = 32 ∨ (Rect.block (s := S8192x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S8192x1024.size a
  hwx0_7 : ∀ i : grid0.Coords, EltTy.bits .f32 = 32 ∨ (Rect.block (s := S8192x1024) S128x1024.size (cc0_transform_7 i) (hinb0_7 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S8192x4096 : Shape := ⟨2, ![8192, 4096]⟩
abbrev S1x4096 : Shape := ⟨2, ![1, 4096]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S4096, .f32⟩
  | .hbm, ⟨22, _⟩ => ⟨S4096, .f32⟩
  | .hbm, ⟨23, _⟩ => ⟨S1024x4096, .f32⟩
  | .hbm, ⟨24, _⟩ => ⟨S8192x4096, .f32⟩
  | .hbm, ⟨25, _⟩ => ⟨S1x4096, .f32⟩
  | .hbm, ⟨26, _⟩ => ⟨S8192x4096, .f32⟩
  | .hbm, ⟨27, _⟩ => ⟨S8192x4096, .f32⟩
  | .hbm, ⟨28, _⟩ => ⟨S1024x4096, .f32⟩
  | .hbm, ⟨29, _⟩ => ⟨S8192x4096, .f32⟩
  | .hbm, ⟨30, _⟩ => ⟨S8192x4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.KFrame.lean ====
/-
  The frame of the LSTM-cell program: it runs to the end, faults nowhere and leaves its nineteen argument arrays as launched;
  and what each of the two result arrays holds afterwards, block by block.

  @main is ten host operations (four concatenations, the bias sum, a reshape, two transposes and two format changes), then one
  pipelined region over 64 grid points. None of the host operations writes an argument. At grid point t the body finds, in its
  staging buffers, rows [128t, 128t+128) of the three activation arrays and the whole of the two weight arrays and of the
  bias row (fetched once, at the first point, and left in place); it stores the new hidden and cell blocks whole, so what an
  output buffer holds after the body is one piece covering it, a pure function of the six input blocks.
-/
import proofs.«143904_j80350248173766_1_alg».proof.Proof.Gen.Kernel.Launch
import proofs.«143904_j80350248173766_1_alg».proof.Proof.Gen.Kernel.Skeleton
import proofs.«143904_j80350248173766_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: the launch contents after the ten host operations. -/
abbrev V (c : Dev nD) (b : Ref sig .tc) : Buf (Elt F) ((c : Thread nD τ).loc b) :=
  StableHlo.after (List.flatten [hostOps0]) (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The ten buffers the host operations write. -/
abbrev hostWritten : List (Ref sig .tc) := [main_v0, main_v1, main_v2, main_v3, main_v4, main_v5, main_v6, main_v7, main_v8, main_v9]

/-- A buffer that is none of the ten is found by the region as launched. -/
theorem V_unwritten (c : Dev nD) (b : Ref sig .tc) (hb : ∀ y ∈ hostWritten, b ≠ y) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    exact ⟨StableHlo.devRef_ne_of_ne (hb main_v0 (by simp [hostWritten])), StableHlo.devRef_ne_of_ne (hb main_v1 (by simp [hostWritten])),
      StableHlo.devRef_ne_of_ne (hb main_v2 (by simp [hostWritten])), StableHlo.devRef_ne_of_ne (hb main_v3 (by simp [hostWritten])),
      StableHlo.devRef_ne_of_ne (hb main_v4 (by simp [hostWritten])), StableHlo.devRef_ne_of_ne (hb main_v5 (by simp [hostWritten])),
      StableHlo.devRef_ne_of_ne (hb main_v6 (by simp [hostWritten])), StableHlo.devRef_ne_of_ne (hb main_v7 (by simp [hostWritten])),
      StableHlo.devRef_ne_of_ne (hb main_v8 (by simp [hostWritten])), StableHlo.devRef_ne_of_ne (hb main_v9 (by simp [hostWritten]))⟩))

theorem V_main_arg0 (c : Dev nD) : V m c main_arg0 = m ((c : Thread nD τ).loc main_arg0) := V_unwritten m c main_arg0 (by decide)
theorem V_main_arg1 (c : Dev nD) : V m c main_arg1 = m ((c : Thread nD τ).loc main_arg1) := V_unwritten m c main_arg1 (by decide)
theorem V_main_arg2 (c : Dev nD) : V m c main_arg2 = m ((c : Thread nD τ).loc main_arg2) := V_unwritten m c main_arg2 (by decide)
theorem V_main_arg3 (c : Dev nD) : V m c main_arg3 = m ((c : Thread nD τ).loc main_arg3) := V_unwritten m c main_arg3 (by decide)
theorem V_main_arg4 (c : Dev nD) : V m c main_arg4 = m ((c : Thread nD τ).loc main_arg4) := V_unwritten m c main_arg4 (by decide)
theorem V_main_arg5 (c : Dev nD) : V m c main_arg5 = m ((c : Thread nD τ).loc main_arg5) := V_unwritten m c main_arg5 (by decide)
theorem V_main_arg6 (c : Dev nD) : V m c main_arg6 = m ((c : Thread nD τ).loc main_arg6) := V_unwritten m c main_arg6 (by decide)
theorem V_main_arg7 (c : Dev nD) : V m c main_arg7 = m ((c : Thread nD τ).loc main_arg7) := V_unwritten m c main_arg7 (by decide)
theorem V_main_arg8 (c : Dev nD) : V m c main_arg8 = m ((c : Thread nD τ).loc main_arg8) := V_unwritten m c main_arg8 (by decide)
theorem V_main_arg9 (c : Dev nD) : V m c main_arg9 = m ((c : Thread nD τ).loc main_arg9) := V_unwritten m c main_arg9 (by decide)
theorem V_main_arg10 (c : Dev nD) : V m c main_arg10 = m ((c : Thread nD τ).loc main_arg10) := V_unwritten m c main_arg10 (by decide)
theorem V_main_arg11 (c : Dev nD) : V m c main_arg11 = m ((c : Thread nD τ).loc main_arg11) := V_unwritten m c main_arg11 (by decide)
theorem V_main_arg12 (c : Dev nD) : V m c main_arg12 = m ((c : Thread nD τ).loc main_arg12) := V_unwritten m c main_arg12 (by decide)
theorem V_main_arg13 (c : Dev nD) : V m c main_arg13 = m ((c : Thread nD τ).loc main_arg13) := V_unwritten m c main_arg13 (by decide)
theorem V_main_arg14 (c : Dev nD) : V m c main_arg14 = m ((c : Thread nD τ).loc main_arg14) := V_unwritten m c main_arg14 (by decide)
theorem V_main_arg15 (c : Dev nD) : V m c main_arg15 = m ((c : Thread nD τ).loc main_arg15) := V_unwritten m c main_arg15 (by decide)
theorem V_main_arg16 (c : Dev nD) : V m c main_arg16 = m ((c : Thread nD τ).loc main_arg16) := V_unwritten m c main_arg16 (by decide)
theorem V_main_arg17 (c : Dev nD) : V m c main_arg17 = m ((c : Thread nD τ).loc main_arg17) := V_unwritten m c main_arg17 (by decide)
theorem V_main_arg18 (c : Dev nD) : V m c main_arg18 = m ((c : Thread nD τ).loc main_arg18) := V_unwritten m c main_arg18 (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not fetched its
    block index has not moved and the body left the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is not fetched its
    block index has not moved and the body left the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is not fetched its
    block index has not moved and the body left the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is not fetched its
    block index has not moved and the body left the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it is not fetched its
    block index has not moved and the body left the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it is not fetched its
    block index has not moved and the body left the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rAct : Rect S128x1024 := Rect.unit (s := S128x1024) ![0, 0] S128x1024.size inb_S128x1024_S128x1024_0_0
abbrev rWt : Rect S1024x4096 := Rect.unit (s := S1024x4096) ![0, 0] S1024x4096.size inb_S1024x4096_S1024x4096_0_0
abbrev rRow : Rect S1x4096 := Rect.unit (s := S1x4096) ![0, 0] S1x4096.size inb_S1x4096_S1x4096_0_0

/-! ## What the body leaves in each output window's buffer -/

/-- The hidden-state buffer after the body: one store covering it, of the six input blocks. -/
def out0_6 (x0 x1 x2 : Vec F S128x1024 .f32) (x3 x4 : Vec F S1024x4096 .bf16) (x5 : Vec F S1x4096 .f32) : Vec F S128x1024 .f32 :=
  View.canon [⟨rAct, k0_pay3 (View.ld x0 rAct) (View.ld x1 rAct) (View.ld x3 rWt) (View.ld x4 rWt) (View.ld x5 rRow) (View.ld x2 rAct)⟩]

/-- The cell-state buffer after the body. -/
def out0_7 (x0 x1 x2 : Vec F S128x1024 .f32) (x3 x4 : Vec F S1024x4096 .bf16) (x5 : Vec F S1x4096 .f32) : Vec F S128x1024 .f32 :=
  View.canon [⟨rAct, k0_pay2 (View.ld x0 rAct) (View.ld x1 rAct) (View.ld x3 rWt) (View.ld x4 rWt) (View.ld x5 rRow) (View.ld x2 rAct)⟩]

/-- One whole store covers the buffer. -/
theorem cover0_out (p0 : Vec F S128x1024 .f32) (y : S128x1024.Idx) :
    ∃ pc ∈ ([⟨rAct, p0⟩] : List (View.Piece (Elt F) S128x1024 .f32)), y ∈ pc.1.set :=
  View.cover_of_tiled [⟨rAct, p0⟩] S128x1024.size (by rfl) y

/-! ## The body's triple -/

set_option maxHeartbeats 4000000 in
/-- The body on whole staging memrefs, the inputs' at contents xW and the outputs' at anything, runs to a state holding the
    inputs' as they were and each output's at its one store of the inputs. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S128x1024 .f32) (harg7 : arg7.IsWhole) (arg8 : Memref sig .tc .vmem S128x1024 .f32) (harg8 : arg8.IsWhole)
    (x0 x1 x2 : Vec F S128x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_out _)
  iexists _; isplitr
  swap; · iexact H7
  ipureintro
  exact View.read_writes_eq_canon _ _ _ (cover0_out _)

/-! ## The pipeline's proof data -/

/-- The proof data of the pipeline on core c: the arrays as the region finds them; after the body at point t each input's
    buffer at its block and each output's at its store of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each array of
    the pipeline at what the write-backs leave there and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run again, read at the two result arrays and the nineteen arguments: the results at what the write-backs leave, the
    arguments as launched (the three staged ones are inputs no write-back touches; the others bypass the region). -/
theorem run_read : θ_run defs (onTc (τ := τ) (main (F := F))) ⟨m, fun _ => 0, ρ⟩ (fun r => ∀ c : Dev nD,
      r.2.mem ((c.tc : Thread nD τ).loc main_v10_0) = (dats m 0 c).arrAt 6 cfg0.N
      ∧ r.2.mem ((c.tc : Thread nD τ).loc main_v10_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(h c).1 6, (h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) (run_main m ρ)

/-- The frame: the program runs and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => (h c).2.2) (run_read m ρ)

end Cert.Kernel.Hand

end
-- ==== Proof.KIFrame.lean ====
/-
  The frame of the LSTM-cell program: it runs to the end, faults nowhere and leaves its nineteen argument arrays as launched;
  and what each of the two result arrays holds afterwards, block by block.

  @main is ten host operations (four concatenations, the bias sum, a reshape, two transposes and two format changes), then one
  pipelined region over 64 grid points. None of the host operations writes an argument. At grid point t the body finds, in its
  staging buffers, rows [128t, 128t+128) of the three activation arrays and the whole of the two weight arrays and of the
  bias row (fetched once, at the first point, and left in place); it stores the new hidden and cell blocks whole, so what an
  output buffer holds after the body is one piece covering it, a pure function of the six input blocks.
-/
import proofs.«143904_j80350248173766_1_alg».proof.Proof.Gen.KernelIdeal.Launch
import proofs.«143904_j80350248173766_1_alg».proof.Proof.Gen.KernelIdeal.Skeleton
import proofs.«143904_j80350248173766_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: the launch contents after the ten host operations. -/
abbrev V (c : Dev nD) (b : Ref sig .tc) : Buf (Elt F) ((c : Thread nD τ).loc b) :=
  StableHlo.after (List.flatten [hostOps0]) (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The ten buffers the host operations write. -/
abbrev hostWritten : List (Ref sig .tc) := [main_v0, main_v1, main_v2, main_v3, main_v4, main_v5, main_v6, main_v7, main_v8, main_v9]

/-- A buffer that is none of the ten is found by the region as launched. -/
theorem V_unwritten (c : Dev nD) (b : Ref sig .tc) (hb : ∀ y ∈ hostWritten, b ≠ y) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    exact ⟨StableHlo.devRef_ne_of_ne (hb main_v0 (by simp [hostWritten])), StableHlo.devRef_ne_of_ne (hb main_v1 (by simp [hostWritten])),
      StableHlo.devRef_ne_of_ne (hb main_v2 (by simp [hostWritten])), StableHlo.devRef_ne_of_ne (hb main_v3 (by simp [hostWritten])),
      StableHlo.devRef_ne_of_ne (hb main_v4 (by simp [hostWritten])), StableHlo.devRef_ne_of_ne (hb main_v5 (by simp [hostWritten])),
      StableHlo.devRef_ne_of_ne (hb main_v6 (by simp [hostWritten])), StableHlo.devRef_ne_of_ne (hb main_v7 (by simp [hostWritten])),
      StableHlo.devRef_ne_of_ne (hb main_v8 (by simp [hostWritten])), StableHlo.devRef_ne_of_ne (hb main_v9 (by simp [hostWritten]))⟩))

theorem V_main_arg0 (c : Dev nD) : V m c main_arg0 = m ((c : Thread nD τ).loc main_arg0) := V_unwritten m c main_arg0 (by decide)
theorem V_main_arg1 (c : Dev nD) : V m c main_arg1 = m ((c : Thread nD τ).loc main_arg1) := V_unwritten m c main_arg1 (by decide)
theorem V_main_arg2 (c : Dev nD) : V m c main_arg2 = m ((c : Thread nD τ).loc main_arg2) := V_unwritten m c main_arg2 (by decide)
theorem V_main_arg3 (c : Dev nD) : V m c main_arg3 = m ((c : Thread nD τ).loc main_arg3) := V_unwritten m c main_arg3 (by decide)
theorem V_main_arg4 (c : Dev nD) : V m c main_arg4 = m ((c : Thread nD τ).loc main_arg4) := V_unwritten m c main_arg4 (by decide)
theorem V_main_arg5 (c : Dev nD) : V m c main_arg5 = m ((c : Thread nD τ).loc main_arg5) := V_unwritten m c main_arg5 (by decide)
theorem V_main_arg6 (c : Dev nD) : V m c main_arg6 = m ((c : Thread nD τ).loc main_arg6) := V_unwritten m c main_arg6 (by decide)
theorem V_main_arg7 (c : Dev nD) : V m c main_arg7 = m ((c : Thread nD τ).loc main_arg7) := V_unwritten m c main_arg7 (by decide)
theorem V_main_arg8 (c : Dev nD) : V m c main_arg8 = m ((c : Thread nD τ).loc main_arg8) := V_unwritten m c main_arg8 (by decide)
theorem V_main_arg9 (c : Dev nD) : V m c main_arg9 = m ((c : Thread nD τ).loc main_arg9) := V_unwritten m c main_arg9 (by decide)
theorem V_main_arg10 (c : Dev nD) : V m c main_arg10 = m ((c : Thread nD τ).loc main_arg10) := V_unwritten m c main_arg10 (by decide)
theorem V_main_arg11 (c : Dev nD) : V m c main_arg11 = m ((c : Thread nD τ).loc main_arg11) := V_unwritten m c main_arg11 (by decide)
theorem V_main_arg12 (c : Dev nD) : V m c main_arg12 = m ((c : Thread nD τ).loc main_arg12) := V_unwritten m c main_arg12 (by decide)
theorem V_main_arg13 (c : Dev nD) : V m c main_arg13 = m ((c : Thread nD τ).loc main_arg13) := V_unwritten m c main_arg13 (by decide)
theorem V_main_arg14 (c : Dev nD) : V m c main_arg14 = m ((c : Thread nD τ).loc main_arg14) := V_unwritten m c main_arg14 (by decide)
theorem V_main_arg15 (c : Dev nD) : V m c main_arg15 = m ((c : Thread nD τ).loc main_arg15) := V_unwritten m c main_arg15 (by decide)
theorem V_main_arg16 (c : Dev nD) : V m c main_arg16 = m ((c : Thread nD τ).loc main_arg16) := V_unwritten m c main_arg16 (by decide)
theorem V_main_arg17 (c : Dev nD) : V m c main_arg17 = m ((c : Thread nD τ).loc main_arg17) := V_unwritten m c main_arg17 (by decide)
theorem V_main_arg18 (c : Dev nD) : V m c main_arg18 = m ((c : Thread nD τ).loc main_arg18) := V_unwritten m c main_arg18 (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not fetched its
    block index has not moved and the body left the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is not fetched its
    block index has not moved and the body left the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is not fetched its
    block index has not moved and the body left the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is not fetched its
    block index has not moved and the body left the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it is not fetched its
    block index has not moved and the body left the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it is not fetched its
    block index has not moved and the body left the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rAct : Rect S128x1024 := Rect.unit (s := S128x1024) ![0, 0] S128x1024.size inb_S128x1024_S128x1024_0_0
abbrev rWt : Rect S1024x4096 := Rect.unit (s := S1024x4096) ![0, 0] S1024x4096.size inb_S1024x4096_S1024x4096_0_0
abbrev rRow : Rect S1x4096 := Rect.unit (s := S1x4096) ![0, 0] S1x4096.size inb_S1x4096_S1x4096_0_0

/-! ## What the body leaves in each output window's buffer -/

/-- The hidden-state buffer after the body: one store covering it, of the six input blocks. -/
def out0_6 (x0 x1 x2 : Vec F S128x1024 .f32) (x3 x4 : Vec F S1024x4096 .bf16) (x5 : Vec F S1x4096 .f32) : Vec F S128x1024 .f32 :=
  View.canon [⟨rAct, k0_pay3 (View.ld x0 rAct) (View.ld x1 rAct) (View.ld x3 rWt) (View.ld x4 rWt) (View.ld x5 rRow) (View.ld x2 rAct)⟩]

/-- The cell-state buffer after the body. -/
def out0_7 (x0 x1 x2 : Vec F S128x1024 .f32) (x3 x4 : Vec F S1024x4096 .bf16) (x5 : Vec F S1x4096 .f32) : Vec F S128x1024 .f32 :=
  View.canon [⟨rAct, k0_pay2 (View.ld x0 rAct) (View.ld x1 rAct) (View.ld x3 rWt) (View.ld x4 rWt) (View.ld x5 rRow) (View.ld x2 rAct)⟩]

/-- One whole store covers the buffer. -/
theorem cover0_out (p0 : Vec F S128x1024 .f32) (y : S128x1024.Idx) :
    ∃ pc ∈ ([⟨rAct, p0⟩] : List (View.Piece (Elt F) S128x1024 .f32)), y ∈ pc.1.set :=
  View.cover_of_tiled [⟨rAct, p0⟩] S128x1024.size (by rfl) y

/-! ## The body's triple -/

set_option maxHeartbeats 4000000 in
/-- The body on whole staging memrefs, the inputs' at contents xW and the outputs' at anything, runs to a state holding the
    inputs' as they were and each output's at its one store of the inputs. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S128x1024 .f32) (harg7 : arg7.IsWhole) (arg8 : Memref sig .tc .vmem S128x1024 .f32) (harg8 : arg8.IsWhole)
    (x0 x1 x2 : Vec F S128x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_out _)
  iexists _; isplitr
  swap; · iexact H7
  ipureintro
  exact View.read_writes_eq_canon _ _ _ (cover0_out _)

/-! ## The pipeline's proof data -/

/-- The proof data of the pipeline on core c: the arrays as the region finds them; after the body at point t each input's
    buffer at its block and each output's at its store of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each array of
    the pipeline at what the write-backs leave there and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run again, read at the two result arrays and the nineteen arguments: the results at what the write-backs leave, the
    arguments as launched (the three staged ones are inputs no write-back touches; the others bypass the region). -/
theorem run_read : θ_run defs (onTc (τ := τ) (main (F := F))) ⟨m, fun _ => 0, ρ⟩ (fun r => ∀ c : Dev nD,
      r.2.mem ((c.tc : Thread nD τ).loc main_v10_0) = (dats m 0 c).arrAt 6 cfg0.N
      ∧ r.2.mem ((c.tc : Thread nD τ).loc main_v10_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(h c).1 6, (h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) (run_main m ρ)

/-- The frame: the program runs and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => (h c).2.2) (run_read m ρ)

end Cert.KernelIdeal.Hand

end
-- ==== Proof.Spec.lean ====
/-
  One step of an LSTM cell over the extended reals, as functions of the argument arrays.

  The four gates share one pre-activation row of width 4096: column j of row p is
      x(p,·)·wx(·,j) + bx(j) + h(p,·)·wh(·,j) + bh(j),
  with the input, forget, output and candidate gates in the column ranges [0,1024), [1024,2048), [2048,3072), [3072,4096).
  The next cell state is  σ(f)·c + σ(i)·tanh(g)  and the next hidden state  σ(o)·tanh(c').
  Addition of extended reals is commutative and associative, so the order in which the two products and the two biases
  are added does not matter; nothing here needs finiteness.
-/
import Idealize.ShloMosaic.PureOps.Ideal.Laws
import Idealize.ShloMosaic.Lib.ValueIdx

noncomputable section

namespace Cert.LstmSpec

open Idealize.ShloMosaic Idealize.ShloMosaic.ValueIdx

/-- Batch by hidden width: the activations, the cell state and both results. -/
abbrev SAct : Shape := ⟨2, ![8192, 1024]⟩
/-- One grid point's rows of the activations. -/
abbrev SBlk : Shape := ⟨2, ![128, 1024]⟩
/-- The stacked gate weights, contraction axis first. -/
abbrev SWt : Shape := ⟨2, ![1024, 4096]⟩
/-- A stacked gate bias. -/
abbrev SBias : Shape := ⟨1, ![4096]⟩
/-- The summed bias as a one-row matrix. -/
abbrev SRow : Shape := ⟨2, ![1, 4096]⟩

/-- Column of the input gate for hidden unit q. -/
def colI (q : Fin 1024) : Fin 4096 := ⟨q.val, by omega⟩
/-- Column of the forget gate. -/
def colF (q : Fin 1024) : Fin 4096 := ⟨q.val + 1024, by omega⟩
/-- Column of the output gate. -/
def colO (q : Fin 1024) : Fin 4096 := ⟨q.val + 2048, by omega⟩
/-- Column of the candidate. -/
def colG (q : Fin 1024) : Fin 4096 := ⟨q.val + 3072, by omega⟩

/-- The cell update from the four gate pre-activations and the old cell value. -/
def cellOf (zi zf zg cOld : EReal) : EReal :=
  Ideal.logistic zf * cOld + Ideal.logistic zi * Ideal.tanh zg

/-- The hidden update from the output gate's pre-activation and the new cell value. -/
def hidOf (zo cNew : EReal) : EReal :=
  Ideal.logistic zo * Ideal.tanh cNew

section whole
variable (x h c : SAct.Idx → EReal) (wx wh : SWt.Idx → EReal) (bx bh : SBias.Idx → EReal)

/-- Gate pre-activation at row p, column j, the two biases added one after the other. -/
def pre (p : Fin 8192) (j : Fin 4096) : EReal :=
  (((∑ k : Fin 1024, x (ix2 p k) * wx (ix2 k j)) + bx (ix1 j)) + ∑ k : Fin 1024, h (ix2 p k) * wh (ix2 k j)) + bh (ix1 j)

/-- The same with the two products added first and the two biases added to each other first. -/
theorem pre_products_first (p : Fin 8192) (j : Fin 4096) :
    ((∑ k : Fin 1024, x (ix2 p k) * wx (ix2 k j)) + ∑ k : Fin 1024, h (ix2 p k) * wh (ix2 k j)) + (bx (ix1 j) + bh (ix1 j))
      = pre x h wx wh bx bh p j := by
  unfold pre
  ac_rfl

/-- Next cell state at row p, hidden unit q. -/
def cellNext (p : Fin 8192) (q : Fin 1024) : EReal :=
  cellOf (pre x h wx wh bx bh p (colI q)) (pre x h wx wh bx bh p (colF q)) (pre x h wx wh bx bh p (colG q)) (c (ix2 p q))

/-- Next hidden state at row p, hidden unit q. -/
def hidNext (p : Fin 8192) (q : Fin 1024) : EReal :=
  hidOf (pre x h wx wh bx bh p (colO q)) (cellNext x h c wx wh bx bh p q)

/-- The next cell state as an array. -/
def cellArr : SAct.Idx → EReal := fun i => cellNext x h c wx wh bx bh (i 0) (i 1)

/-- The next hidden state as an array. -/
def hidArr : SAct.Idx → EReal := fun i => hidNext x h c wx wh bx bh (i 0) (i 1)

theorem cellArr_apply (p : Fin 8192) (q : Fin 1024) : cellArr x h c wx wh bx bh (ix2 p q) = cellNext x h c wx wh bx bh p q := rfl
theorem hidArr_apply (p : Fin 8192) (q : Fin 1024) : hidArr x h c wx wh bx bh (ix2 p q) = hidNext x h c wx wh bx bh p q := rfl

end whole

section block
variable (xb hb cb : SBlk.Idx → EReal) (wx wh : SWt.Idx → EReal) (b : SRow.Idx → EReal)

/-- Gate pre-activation of one block of 128 rows against the whole weights, the summed bias read from its one row. -/
def blkPre (p : Fin 128) (j : Fin 4096) : EReal :=
  ((∑ k : Fin 1024, xb (ix2 p k) * wx (ix2 k j)) + ∑ k : Fin 1024, hb (ix2 p k) * wh (ix2 k j)) + b (ix2 (0 : Fin 1) j)

/-- Next cell state inside the block. -/
def blkCell (p : Fin 128) (q : Fin 1024) : EReal :=
  cellOf (blkPre xb hb wx wh b p (colI q)) (blkPre xb hb wx wh b p (colF q)) (blkPre xb hb wx wh b p (colG q)) (cb (ix2 p q))

/-- Next hidden state inside the block. -/
def blkHid (p : Fin 128) (q : Fin 1024) : EReal :=
  hidOf (blkPre xb hb wx wh b p (colO q)) (blkCell xb hb cb wx wh b p q)

end block

end Cert.LstmSpec

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.KIPayload.lean ====
/-
  The body's two stored values at an index: the new cell value and the new hidden value of one block, as the block-level
  formulas of the specification.

  The pre-activation block is the sum of two plain matrix products into the zero accumulator and the bias row broadcast
  down the rows; rounding to the narrower format and a recast of a shape to itself are the identity over the extended
  reals. The four gates are unit-stride column slices of that block at offsets 0, 1024, 2048 and 3072, and the logistic,
  the hyperbolic tangent, the products and the sum act coordinate by coordinate.
-/
import proofs.«143904_j80350248173766_1_alg».proof.Proof.Gen.KernelIdeal.Skeleton
import proofs.«143904_j80350248173766_1_alg».proof.Proof.Spec
import proofs.«143904_j80350248173766_1_alg».proof.Proof.LibPlainDot
import Idealize.ShloMosaic.Lib.ValueLayout

noncomputable section

namespace Cert.KernelIdeal.Pay

open Cert.KernelIdeal Cert.KernelIdeal.Gen
open Idealize.ShloMosaic Idealize.ShloMosaic.ValueIdx

/-- One of the body's two matrix products at (p, j): the sum over the contracted axis. -/
theorem dot_apply (l : FVec Ideal S128x1024 .bf16) (r : FVec Ideal S1024x4096 .bf16) (p : Fin 128) (j : Fin 4096) :
    matmul dot_S128x1024_S1024x4096_S128x4096_1_0_0_1_n_n none l r (constant S128x4096 .f32 0x00000000#32) (ix2 p j)
      = ∑ k : Fin 1024, (l (ix2 p k) : EReal) * (r (ix2 k j) : EReal) :=
  Cert.LibPlainDot.matmul_plain_zero (M := 128) (K := 1024) (N := 4096) none l r (ix2 p j)

/-- The bias row recast to its own shape and broadcast down the 128 rows reads, at (p, j), the row at j. -/
theorem bias_apply (b : FVec Ideal S1x4096 .f32) (p : Fin 128) (j : Fin 4096) :
    broadcastTo S128x4096 (shapeCast S1x4096 b shapeCasts_S1x4096_S1x4096) broadcasts_S1x4096_S128x4096 (ix2 p j)
      = b (ix2 (0 : Fin 1) j) := by
  rw [shapeCast_self]
  exact broadcastTo_apply b broadcasts_S1x4096_S128x4096 (ix2 p j) (ix2 (0 : Fin 1) j) (fun a => by
    match a with
    | ⟨0, _⟩ => rfl
    | ⟨1, _⟩ => rfl)

/-- A block of 1024 columns cut out of the pre-activation block at column offset off reads the block off columns along. -/
theorem slice_apply (off : Nat) (hoff : off + 1024 ≤ 4096) (z : FVec Ideal S128x4096 .f32) (h : S128x4096.Slices ![0, off] S128x1024)
    (p : Fin 128) (q : Fin 1024) :
    extractStridedSlice S128x1024 ![0, off] z h (ix2 p q) = z (ix2 p ⟨q.val + off, by have := q.isLt; omega⟩) :=
  extractStridedSlice_apply ![0, off] z h (ix2 p q) (ix2 p ⟨q.val + off, by have := q.isLt; omega⟩) (fun a => by
    match a with
    | ⟨0, _⟩ => exact (Nat.zero_add p.val).symm
    | ⟨1, _⟩ => exact Nat.add_comm q.val off)

/-- The pre-activation block at (p, j). -/
theorem pay1_apply (v0 v2 : Vec Ideal S128x1024 .f32) (v4 v7 : Vec Ideal S1024x4096 .bf16) (v11 : Vec Ideal S1x4096 .f32)
    (p : Fin 128) (j : Fin 4096) :
    k0_pay1 (F := Ideal) v0 v2 v4 v7 v11 (ix2 p j) = Cert.LstmSpec.blkPre v0 v2 v4 v7 v11 p j := by
  unfold k0_pay1 Cert.LstmSpec.blkPre
  refine (addf_apply _ _ _).trans ?_
  refine congrArg₂ (· + ·) ((addf_apply _ _ _).trans (congrArg₂ (· + ·) ?_ ?_)) (bias_apply v11 p j)
  · rw [shapeCast_self]
    exact dot_apply _ _ p j
  · rw [shapeCast_self]
    exact dot_apply _ _ p j

/-- The stored cell block at (p, q). -/
theorem pay2_apply (v0 v2 : Vec Ideal S128x1024 .f32) (v4 v7 : Vec Ideal S1024x4096 .bf16) (v11 : Vec Ideal S1x4096 .f32) (v23 : Vec Ideal S128x1024 .f32)
    (p : Fin 128) (q : Fin 1024) :
    k0_pay2 (F := Ideal) v0 v2 v4 v7 v11 v23 (ix2 p q) = Cert.LstmSpec.blkCell v0 v2 v23 v4 v7 v11 p q := by
  unfold k0_pay2 Cert.LstmSpec.blkCell Cert.LstmSpec.cellOf
  refine (addf_apply _ _ _).trans (congrArg₂ (· + ·) ?_ ?_)
  · refine (mulf_apply _ _ _).trans (congrArg₂ (· * ·) (congrArg Ideal.logistic ?_) rfl)
    exact (slice_apply 1024 (by omega) _ _ p q).trans (pay1_apply v0 v2 v4 v7 v11 p _)
  · refine (mulf_apply _ _ _).trans (congrArg₂ (· * ·) (congrArg Ideal.logistic ?_) (congrArg Ideal.tanh ?_))
    · exact (slice_apply 0 (by omega) _ _ p q).trans (pay1_apply v0 v2 v4 v7 v11 p _)
    · exact (slice_apply 3072 (by omega) _ _ p q).trans (pay1_apply v0 v2 v4 v7 v11 p _)

/-- The stored hidden block at (p, q). -/
theorem pay3_apply (v0 v2 : Vec Ideal S128x1024 .f32) (v4 v7 : Vec Ideal S1024x4096 .bf16) (v11 : Vec Ideal S1x4096 .f32) (v23 : Vec Ideal S128x1024 .f32)
    (p : Fin 128) (q : Fin 1024) :
    k0_pay3 (F := Ideal) v0 v2 v4 v7 v11 v23 (ix2 p q) = Cert.LstmSpec.blkHid v0 v2 v23 v4 v7 v11 p q := by
  unfold k0_pay3 Cert.LstmSpec.blkHid Cert.LstmSpec.hidOf
  refine (mulf_apply _ _ _).trans (congrArg₂ (· * ·) (congrArg Ideal.logistic ?_) (congrArg Ideal.tanh ?_))
  · exact (slice_apply 2048 (by omega) _ _ p q).trans (pay1_apply v0 v2 v4 v7 v11 p _)
  · exact pay2_apply v0 v2 v4 v7 v11 v23 p q

end Cert.KernelIdeal.Pay

end
-- ==== Proof.KIValue.lean ====
/-
  What the two result arrays hold after the run, as whole-array functions of the argument arrays.

  Grid point t writes back rows [128t, 128t+128) of each result; inside that block, row p is row 128t+p of the activations
  against the whole weights, so every block is a restriction of one function of the arrays the region finds, and the 64
  blocks tile the result. The weights the region finds are the stacked, transposed argument matrices (the change of format
  is the identity over the extended reals) and the bias row is the sum of the two stacked biases; adding the products first
  and the summed bias last is the reference's order of additions up to commutativity and associativity.
-/
import proofs.«143904_j80350248173766_1_alg».proof.Proof.KIFrame
import proofs.«143904_j80350248173766_1_alg».proof.Proof.KIPayload
import proofs.«143904_j80350248173766_1_alg».proof.Proof.Spec
import Idealize.ShloMosaic.Lib.Pipeline.Value
import Idealize.ShloMosaic.Lib.ValueLayout
import Idealize.ShloMosaic.Lib.StableHlo.Run

set_option maxRecDepth 16384

noncomputable section

namespace Cert.KernelIdeal.HandValue

open Cert.KernelIdeal Cert.KernelIdeal.Gen Cert.KernelIdeal.Hand Cert.LstmSpec
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The same cell over the arrays the region finds, products added first -/

section kernelOrder
variable (x h c : SAct.Idx → EReal) (wx wh : SWt.Idx → EReal) (b : SRow.Idx → EReal)

/-- Gate pre-activation at row r, column j: the two products, then the bias row. -/
def kerPre (r : Fin 8192) (j : Fin 4096) : EReal :=
  ((∑ k : Fin 1024, x (ix2 r k) * wx (ix2 k j)) + ∑ k : Fin 1024, h (ix2 r k) * wh (ix2 k j)) + b (ix2 (0 : Fin 1) j)

def kerCell (r : Fin 8192) (q : Fin 1024) : EReal :=
  cellOf (kerPre x h wx wh b r (colI q)) (kerPre x h wx wh b r (colF q)) (kerPre x h wx wh b r (colG q)) (c (ix2 r q))

def kerHid (r : Fin 8192) (q : Fin 1024) : EReal :=
  hidOf (kerPre x h wx wh b r (colO q)) (kerCell x h c wx wh b r q)

def kerCellArr : SAct.Idx → EReal := fun i => kerCell x h c wx wh b (i 0) (i 1)
def kerHidArr : SAct.Idx → EReal := fun i => kerHid x h c wx wh b (i 0) (i 1)

end kernelOrder

/-- A block's formulas are the array's at the block's rows, when the block's entries are the array's there. -/
theorem blkPre_eq_kerPre (xb hb : SBlk.Idx → EReal) (x h : SAct.Idx → EReal) (wxb whb wx wh : SWt.Idx → EReal) (bb b : SRow.Idx → EReal)
    (r : Fin 8192) (p : Fin 128)
    (hx : ∀ k, xb (ix2 p k) = x (ix2 r k)) (hh : ∀ k, hb (ix2 p k) = h (ix2 r k))
    (hwx : ∀ k j, wxb (ix2 k j) = wx (ix2 k j)) (hwh : ∀ k j, whb (ix2 k j) = wh (ix2 k j))
    (hbb : ∀ j, bb (ix2 (0 : Fin 1) j) = b (ix2 (0 : Fin 1) j)) (j : Fin 4096) :
    blkPre xb hb wxb whb bb p j = kerPre x h wx wh b r j := by
  unfold blkPre kerPre
  simp only [hx, hh, hwx, hwh, hbb]

theorem blkCell_eq_kerCell (xb hb cb : SBlk.Idx → EReal) (x h c : SAct.Idx → EReal) (wxb whb wx wh : SWt.Idx → EReal) (bb b : SRow.Idx → EReal)
    (r : Fin 8192) (p : Fin 128)
    (hx : ∀ k, xb (ix2 p k) = x (ix2 r k)) (hh : ∀ k, hb (ix2 p k) = h (ix2 r k)) (hc : ∀ q, cb (ix2 p q) = c (ix2 r q))
    (hwx : ∀ k j, wxb (ix2 k j) = wx (ix2 k j)) (hwh : ∀ k j, whb (ix2 k j) = wh (ix2 k j))
    (hbb : ∀ j, bb (ix2 (0 : Fin 1) j) = b (ix2 (0 : Fin 1) j)) (q : Fin 1024) :
    blkCell xb hb cb wxb whb bb p q = kerCell x h c wx wh b r q := by
  unfold blkCell kerCell
  rw [blkPre_eq_kerPre xb hb x h wxb whb wx wh bb b r p hx hh hwx hwh hbb, blkPre_eq_kerPre xb hb x h wxb whb wx wh bb b r p hx hh hwx hwh hbb,
    blkPre_eq_kerPre xb hb x h wxb whb wx wh bb b r p hx hh hwx hwh hbb, hc]

theorem blkHid_eq_kerHid (xb hb cb : SBlk.Idx → EReal) (x h c : SAct.Idx → EReal) (wxb whb wx wh : SWt.Idx → EReal) (bb b : SRow.Idx → EReal)
    (r : Fin 8192) (p : Fin 128)
    (hx : ∀ k, xb (ix2 p k) = x (ix2 r k)) (hh : ∀ k, hb (ix2 p k) = h (ix2 r k)) (hc : ∀ q, cb (ix2 p q) = c (ix2 r q))
    (hwx : ∀ k j, wxb (ix2 k j) = wx (ix2 k j)) (hwh : ∀ k j, whb (ix2 k j) = wh (ix2 k j))
    (hbb : ∀ j, bb (ix2 (0 : Fin 1) j) = b (ix2 (0 : Fin 1) j)) (q : Fin 1024) :
    blkHid xb hb cb wxb whb bb p q = kerHid x h c wx wh b r q := by
  unfold blkHid kerHid
  rw [blkPre_eq_kerPre xb hb x h wxb whb wx wh bb b r p hx hh hwx hwh hbb,
    blkCell_eq_kerCell xb hb cb x h c wxb whb wx wh bb b r p hx hh hc hwx hwh hbb]

/-! ## The blocks' places in their arrays -/

theorem hz : (![0, 0] : Fin 2 → Nat) = fun _ => 0 := funext fun a => by fin_cases a <;> rfl

/-- The printed index maps over the grid: the five moving windows are at block row t, column block 0; the three resident ones at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row p of grid point t's block is row 128t + p of the array. -/
def rowAt (t : Fin cfg0.N) (p : Fin 128) : Fin 8192 := ⟨t.val * 128 + p.val, by have ht : t.val < 64 := lt_of_lt_of_eq t.isLt N_0; have hp := p.isLt; omega⟩

/-- The same bound, for arithmetic. -/
theorem t_lt (t : Fin cfg0.N) : t.val < 64 := lt_of_lt_of_eq t.isLt N_0

/-- Where the moving windows' blocks sit: entry (p, q) of grid point t's block is entry (128t + p, q) of the array. -/
theorem emb0 (t : Fin cfg0.N) (p : Fin 128) (q : Fin 1024) : ((cfg0.win 0).blk t).view.emb (ix2 p q) = ix2 (rowAt t p) q := by
  obtain ⟨e0, e1, -⟩ := idx_facts t
  funext a; apply Fin.ext
  match a with
  | ⟨0, _⟩ => show win0_0.index t (0 : Fin 2) * 128 + 1 * p.val = t.val * 128 + p.val; omega
  | ⟨1, _⟩ => show win0_0.index t (1 : Fin 2) * 1024 + 1 * q.val = q.val; omega
theorem emb1 (t : Fin cfg0.N) (p : Fin 128) (q : Fin 1024) : ((cfg0.win 1).blk t).view.emb (ix2 p q) = ix2 (rowAt t p) q := by
  obtain ⟨-, -, e0, e1, -⟩ := idx_facts t
  funext a; apply Fin.ext
  match a with
  | ⟨0, _⟩ => show win0_1.index t (0 : Fin 2) * 128 + 1 * p.val = t.val * 128 + p.val; omega
  | ⟨1, _⟩ => show win0_1.index t (1 : Fin 2) * 1024 + 1 * q.val = q.val; omega
theorem emb2 (t : Fin cfg0.N) (p : Fin 128) (q : Fin 1024) : ((cfg0.win 2).blk t).view.emb (ix2 p q) = ix2 (rowAt t p) q := by
  obtain ⟨-, -, -, -, e0, e1, -⟩ := idx_facts t
  funext a; apply Fin.ext
  match a with
  | ⟨0, _⟩ => show win0_2.index t (0 : Fin 2) * 128 + 1 * p.val = t.val * 128 + p.val; omega
  | ⟨1, _⟩ => show win0_2.index t (1 : Fin 2) * 1024 + 1 * q.val = q.val; omega
/-- The resident windows' one block is the whole array. -/
theorem emb3 (t : Fin cfg0.N) (k : Fin 1024) (j : Fin 4096) : ((cfg0.win 3).blk t).view.emb (ix2 k j) = ix2 k j := by
  obtain ⟨-, -, -, -, -, -, e0, e1, -⟩ := idx_facts t
  funext a; apply Fin.ext
  match a with
  | ⟨0, _⟩ => show win0_3.index t (0 : Fin 2) * 1024 + 1 * k.val = k.val; omega
  | ⟨1, _⟩ => show win0_3.index t (1 : Fin 2) * 4096 + 1 * j.val = j.val; omega
theorem emb4 (t : Fin cfg0.N) (k : Fin 1024) (j : Fin 4096) : ((cfg0.win 4).blk t).view.emb (ix2 k j) = ix2 k j := by
  obtain ⟨-, -, -, -, -, -, -, -, e0, e1, -⟩ := idx_facts t
  funext a; apply Fin.ext
  match a with
  | ⟨0, _⟩ => show win0_4.index t (0 : Fin 2) * 1024 + 1 * k.val = k.val; omega
  | ⟨1, _⟩ => show win0_4.index t (1 : Fin 2) * 4096 + 1 * j.val = j.val; omega
theorem emb5 (t : Fin cfg0.N) (j : Fin 4096) : ((cfg0.win 5).blk t).view.emb (ix2 (0 : Fin 1) j) = ix2 (0 : Fin 1) j := by
  obtain ⟨-, -, -, -, -, -, -, -, -, -, e0, e1, -⟩ := idx_facts t
  funext a; apply Fin.ext
  match a with
  | ⟨0, _⟩ => show win0_5.index t (0 : Fin 2) * 1 + 1 * 0 = 0; omega
  | ⟨1, _⟩ => show win0_5.index t (1 : Fin 2) * 4096 + 1 * j.val = j.val; omega
theorem emb6 (t : Fin cfg0.N) (p : Fin 128) (q : Fin 1024) : ((cfg0.win 6).blk t).view.emb (ix2 p q) = ix2 (rowAt t p) q := by
  obtain ⟨-, -, -, -, -, -, -, -, -, -, -, -, e0, e1, -⟩ := idx_facts t
  funext a; apply Fin.ext
  match a with
  | ⟨0, _⟩ => show win0_6.index t (0 : Fin 2) * 128 + 1 * p.val = t.val * 128 + p.val; omega
  | ⟨1, _⟩ => show win0_6.index t (1 : Fin 2) * 1024 + 1 * q.val = q.val; omega
theorem emb7 (t : Fin cfg0.N) (p : Fin 128) (q : Fin 1024) : ((cfg0.win 7).blk t).view.emb (ix2 p q) = ix2 (rowAt t p) q := by
  obtain ⟨-, -, -, -, -, -, -, -, -, -, -, -, -, -, e0, e1⟩ := idx_facts t
  funext a; apply Fin.ext
  match a with
  | ⟨0, _⟩ => show win0_7.index t (0 : Fin 2) * 128 + 1 * p.val = t.val * 128 + p.val; omega
  | ⟨1, _⟩ => show win0_7.index t (1 : Fin 2) * 1024 + 1 * q.val = q.val; omega

/-! ## The arrays the region finds, by their literal types -/

abbrev xArr (c : Dev nD) : SAct.Idx → EReal := V m c main_arg0
abbrev hArr (c : Dev nD) : SAct.Idx → EReal := V m c main_arg1
abbrev cArr (c : Dev nD) : SAct.Idx → EReal := V m c main_arg2
abbrev wxArr (c : Dev nD) : SWt.Idx → EReal := V m c main_v7
abbrev whArr (c : Dev nD) : SWt.Idx → EReal := V m c main_v9
abbrev bRow (c : Dev nD) : SRow.Idx → EReal := V m c main_v5

/-- Each input block's entries are its array's at the block's place. -/
theorem iblk0_apply (c : Dev nD) (t : Fin cfg0.N) (p : Fin 128) (k : Fin 1024) : iblk m c 0 t (ix2 p k) = xArr m c (ix2 (rowAt t p) k) := by
  show V m c main_arg0 (((cfg0.win 0).blk t).view.emb (ix2 p k)) = _
  rw [emb0]
theorem iblk1_apply (c : Dev nD) (t : Fin cfg0.N) (p : Fin 128) (k : Fin 1024) : iblk m c 1 t (ix2 p k) = hArr m c (ix2 (rowAt t p) k) := by
  show V m c main_arg1 (((cfg0.win 1).blk t).view.emb (ix2 p k)) = _
  rw [emb1]
theorem iblk2_apply (c : Dev nD) (t : Fin cfg0.N) (p : Fin 128) (q : Fin 1024) : iblk m c 2 t (ix2 p q) = cArr m c (ix2 (rowAt t p) q) := by
  show V m c main_arg2 (((cfg0.win 2).blk t).view.emb (ix2 p q)) = _
  rw [emb2]
theorem iblk3_apply (c : Dev nD) (t : Fin cfg0.N) (k : Fin 1024) (j : Fin 4096) : iblk m c 3 t (ix2 k j) = wxArr m c (ix2 k j) := by
  show V m c main_v7 (((cfg0.win 3).blk t).view.emb (ix2 k j)) = _
  rw [emb3]
theorem iblk4_apply (c : Dev nD) (t : Fin cfg0.N) (k : Fin 1024) (j : Fin 4096) : iblk m c 4 t (ix2 k j) = whArr m c (ix2 k j) := by
  show V m c main_v9 (((cfg0.win 4).blk t).view.emb (ix2 k j)) = _
  rw [emb4]
theorem iblk5_apply (c : Dev nD) (t : Fin cfg0.N) (j : Fin 4096) : iblk m c 5 t (ix2 (0 : Fin 1) j) = bRow m c (ix2 (0 : Fin 1) j) := by
  show V m c main_v5 (((cfg0.win 5).blk t).view.emb (ix2 (0 : Fin 1) j)) = _
  rw [emb5]

/-! ## What a grid point writes back -/

/-- Grid point t writes back, into the hidden-state array, block t of one function of the arrays the region finds. -/
theorem flushed6_eq (c : Dev nD) (t : Fin cfg0.N) :
    (dats m 0 c).flushed 6 t = ((cfg0.win 6).blk t).view.read (Elt Ideal)
      (kerHidArr (xArr m c) (hArr m c) (cArr m c) (wxArr m c) (whArr m c) (bRow m c)) := by
  show (cfg0.win 6).cut (grid0.coords t) ((dats m 0 c).after 6 t) = _
  rw [after0_6]
  unfold out0_6
  rw [View.canon_unit_zero hz]
  simp only [View.ld_unit_zero (S := S128x1024) hz, View.ld_unit_zero (S := S1024x4096) hz, View.ld_unit_zero (S := S1x4096) hz]
  funext y
  obtain ⟨p, q, rfl⟩ : ∃ (p : Fin 128) (q : Fin 1024), y = ix2 p q := ⟨y 0, y 1, eq_ix2 y⟩
  refine (Cert.KernelIdeal.Pay.pay3_apply (iblk m c 0 t) (iblk m c 1 t) (iblk m c 3 t) (iblk m c 4 t) (iblk m c 5 t) (iblk m c 2 t) p q).trans ?_
  refine (blkHid_eq_kerHid (iblk m c 0 t) (iblk m c 1 t) (iblk m c 2 t) (xArr m c) (hArr m c) (cArr m c) (iblk m c 3 t) (iblk m c 4 t) (wxArr m c) (whArr m c)
    (iblk m c 5 t) (bRow m c) (rowAt t p) p (iblk0_apply m c t p) (iblk1_apply m c t p) (iblk2_apply m c t p) (iblk3_apply m c t) (iblk4_apply m c t) (iblk5_apply m c t) q).trans ?_
  show _ = kerHidArr (xArr m c) (hArr m c) (cArr m c) (wxArr m c) (whArr m c) (bRow m c) (((cfg0.win 6).blk t).view.emb (ix2 p q))
  rw [emb6]
  rfl

/-- And into the cell-state array. -/
theorem flushed7_eq (c : Dev nD) (t : Fin cfg0.N) :
    (dats m 0 c).flushed 7 t = ((cfg0.win 7).blk t).view.read (Elt Ideal)
      (kerCellArr (xArr m c) (hArr m c) (cArr m c) (wxArr m c) (whArr m c) (bRow m c)) := by
  show (cfg0.win 7).cut (grid0.coords t) ((dats m 0 c).after 7 t) = _
  rw [after0_7]
  unfold out0_7
  rw [View.canon_unit_zero hz]
  simp only [View.ld_unit_zero (S := S128x1024) hz, View.ld_unit_zero (S := S1024x4096) hz, View.ld_unit_zero (S := S1x4096) hz]
  funext y
  obtain ⟨p, q, rfl⟩ : ∃ (p : Fin 128) (q : Fin 1024), y = ix2 p q := ⟨y 0, y 1, eq_ix2 y⟩
  refine (Cert.KernelIdeal.Pay.pay2_apply (iblk m c 0 t) (iblk m c 1 t) (iblk m c 3 t) (iblk m c 4 t) (iblk m c 5 t) (iblk m c 2 t) p q).trans ?_
  refine (blkCell_eq_kerCell (iblk m c 0 t) (iblk m c 1 t) (iblk m c 2 t) (xArr m c) (hArr m c) (cArr m c) (iblk m c 3 t) (iblk m c 4 t) (wxArr m c) (whArr m c)
    (iblk m c 5 t) (bRow m c) (rowAt t p) p (iblk0_apply m c t p) (iblk1_apply m c t p) (iblk2_apply m c t p) (iblk3_apply m c t) (iblk4_apply m c t) (iblk5_apply m c t) q).trans ?_
  show _ = kerCellArr (xArr m c) (hArr m c) (cArr m c) (wxArr m c) (whArr m c) (bRow m c) (((cfg0.win 7).blk t).view.emb (ix2 p q))
  rw [emb7]
  rfl

/-! ## The blocks tile the results -/

theorem mem_blk6 (t : Fin cfg0.N) (i : S8192x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v10_0).slice (win0_6.rect t)).set ↔ _
  rw [View.set_slice_whole, Rect.mem_set_unit]
  exact Iff.rfl
theorem mem_blk7 (t : Fin cfg0.N) (i : S8192x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v10_1).slice (win0_7.rect t)).set ↔ _
  rw [View.set_slice_whole, Rect.mem_set_unit]
  exact Iff.rfl

/-- The grid point whose block holds row r. -/
def pointOf (i : S8192x1024.Idx) : Fin cfg0.N := ⟨(i 0).val / 128, by
  have hi : (i 0).val < 8192 := (i 0).isLt
  show (i 0).val / 128 < grid0.N
  rw [N_0]; omega⟩

theorem cover6 (i : S8192x1024.Idx) : ∃ t : Fin cfg0.N, (cfg0.win 6).flush t = true ∧ i ∈ ((cfg0.win 6).blk t).view.set := by
  refine ⟨pointOf i, flush0_6 _, ?_⟩
  rw [mem_blk6]
  obtain ⟨-, -, -, -, -, -, -, -, -, -, -, -, e0, e1, -⟩ := idx_facts (pointOf i)
  have hi0 : (i 0).val < 8192 := (i 0).isLt
  have hi1 : (i 1).val < 1024 := (i 1).isLt
  have hp : (pointOf i).val = (i 0).val / 128 := rfl
  intro a
  match a with
  | ⟨0, _⟩ => show win0_6.index (pointOf i) (0 : Fin 2) * 128 ≤ (i 0).val ∧ (i 0).val < win0_6.index (pointOf i) (0 : Fin 2) * 128 + 128; omega
  | ⟨1, _⟩ => show win0_6.index (pointOf i) (1 : Fin 2) * 1024 ≤ (i 1).val ∧ (i 1).val < win0_6.index (pointOf i) (1 : Fin 2) * 1024 + 1024; omega
theorem cover7 (i : S8192x1024.Idx) : ∃ t : Fin cfg0.N, (cfg0.win 7).flush t = true ∧ i ∈ ((cfg0.win 7).blk t).view.set := by
  refine ⟨pointOf i, flush0_7 _, ?_⟩
  rw [mem_blk7]
  obtain ⟨-, -, -, -, -, -, -, -, -, -, -, -, -, -, e0, e1⟩ := idx_facts (pointOf i)
  have hi0 : (i 0).val < 8192 := (i 0).isLt
  have hi1 : (i 1).val < 1024 := (i 1).isLt
  have hp : (pointOf i).val = (i 0).val / 128 := rfl
  intro a
  match a with
  | ⟨0, _⟩ => show win0_7.index (pointOf i) (0 : Fin 2) * 128 ≤ (i 0).val ∧ (i 0).val < win0_7.index (pointOf i) (0 : Fin 2) * 128 + 128; omega
  | ⟨1, _⟩ => show win0_7.index (pointOf i) (1 : Fin 2) * 1024 ≤ (i 1).val ∧ (i 1).val < win0_7.index (pointOf i) (1 : Fin 2) * 1024 + 1024; omega

/-- The hidden-state array after the run, over the arrays the region finds. -/
theorem final6 (c : Dev nD) : (dats m 0 c).arrAt 6 cfg0.N = kerHidArr (xArr m c) (hArr m c) (cArr m c) (wxArr m c) (whArr m c) (bRow m c) :=
  (dats m 0 c).arrAt_eq_of_cover 6 _ (fun t _ => flushed6_eq m c t) (cover6)
/-- The cell-state array after the run. -/
theorem final7 (c : Dev nD) : (dats m 0 c).arrAt 7 cfg0.N = kerCellArr (xArr m c) (hArr m c) (cArr m c) (wxArr m c) (whArr m c) (bRow m c) :=
  (dats m 0 c).arrAt_eq_of_cover 7 _ (fun t _ => flushed7_eq m c t) (cover7)

/-! ## The arrays the region finds, of the argument arrays -/

/-- Four gate weight matrices stacked along the rows and transposed: contraction axis first. -/
abbrev stackT (a b c d : FVec Ideal S1024x1024 .f32) : FVec Ideal S1024x4096 .f32 :=
  transpose S1024x4096 [1, 0] (concatenate S4096x1024 0 [⟨S1024x1024, a⟩, ⟨S1024x1024, b⟩, ⟨S1024x1024, c⟩, ⟨S1024x1024, d⟩] Facts₀.concatenates_S1024x1024_S1024x1024_S1024x1024_S1024x1024_S4096x1024_d0) Facts₀.transposes_S4096x1024_S1024x4096_1_0

/-- Four gate biases stacked. -/
abbrev stackB (a b c d : FVec Ideal S1024 .f32) : FVec Ideal S4096 .f32 :=
  concatenate S4096 0 [⟨S1024, a⟩, ⟨S1024, b⟩, ⟨S1024, c⟩, ⟨S1024, d⟩] Facts₀.concatenates_S1024_S1024_S1024_S1024_S4096_d0

/-- An argument array as launched. -/
abbrev argAt (c : Dev nD) (b : Ref sig .tc) : Buf (Elt Ideal) ((c.tc : Thread nD τ).loc b) := m ((c.tc : Thread nD τ).loc b)

/-- The input weights the region finds: the stacked, transposed matrices in the narrower format. -/
theorem wx_eq (c : Dev nD) : (V m c main_v7 : S1024x4096.Idx → EReal)
    = truncf .bf16 (stackT (argAt m c main_arg3) (argAt m c main_arg7) (argAt m c main_arg11) (argAt m c main_arg15)) Facts₀.bitsLt_bf16_f32 := by
  dsimp only [V]
  simp only [hostOps0, List.flatten_cons, List.flatten_nil, List.append_nil, List.cons_append, List.nil_append]
  after_results
  rfl

/-- The recurrent weights the region finds. -/
theorem wh_eq (c : Dev nD) : (V m c main_v9 : S1024x4096.Idx → EReal)
    = truncf .bf16 (stackT (argAt m c main_arg5) (argAt m c main_arg9) (argAt m c main_arg13) (argAt m c main_arg17)) Facts₀.bitsLt_bf16_f32 := by
  dsimp only [V]
  simp only [hostOps0, List.flatten_cons, List.flatten_nil, List.append_nil, List.cons_append, List.nil_append]
  after_results
  rfl

/-- The bias row the region finds: the two stacked biases added, as a one-row matrix. -/
theorem b_eq (c : Dev nD) : (V m c main_v5 : S1x4096.Idx → EReal)
    = shapeCast S1x4096 (addf (stackB (argAt m c main_arg4) (argAt m c main_arg8) (argAt m c main_arg12) (argAt m c main_arg16)) (stackB (argAt m c main_arg6) (argAt m c main_arg10) (argAt m c main_arg14) (argAt m c main_arg18))) Facts₀.shapeCasts_S4096_S1x4096 := by
  dsimp only [V]
  simp only [hostOps0, List.flatten_cons, List.flatten_nil, List.append_nil, List.cons_append, List.nil_append]
  after_results
  rfl

/-- Over the extended reals the change of format is the identity: the weights at (k, j). -/
theorem wx_apply (c : Dev nD) (k : Fin 1024) (j : Fin 4096) :
    wxArr m c (ix2 k j) = stackT (argAt m c main_arg3) (argAt m c main_arg7) (argAt m c main_arg11) (argAt m c main_arg15) (ix2 k j) :=
  congrFun (wx_eq m c) (ix2 k j)
theorem wh_apply (c : Dev nD) (k : Fin 1024) (j : Fin 4096) :
    whArr m c (ix2 k j) = stackT (argAt m c main_arg5) (argAt m c main_arg9) (argAt m c main_arg13) (argAt m c main_arg17) (ix2 k j) :=
  congrFun (wh_eq m c) (ix2 k j)

/-- The bias row at column j is the sum of the two stacked biases there. -/
theorem bRow_apply (c : Dev nD) (j : Fin 4096) :
    bRow m c (ix2 (0 : Fin 1) j) = stackB (argAt m c main_arg4) (argAt m c main_arg8) (argAt m c main_arg12) (argAt m c main_arg16) (ix1 j)
      + stackB (argAt m c main_arg6) (argAt m c main_arg10) (argAt m c main_arg14) (argAt m c main_arg18) (ix1 j) := by
  refine (congrFun (b_eq m c) (ix2 (0 : Fin 1) j)).trans ?_
  exact shapeCast_apply _ Facts₀.shapeCasts_S4096_S1x4096 (ix2 (0 : Fin 1) j) (ix1 j) (by
    rw [Shape.rowMajor_val_one, Shape.rowMajor_val_two]
    show j.val = (0 : Nat) * 4096 + j.val
    omega)

theorem x_apply (c : Dev nD) (i : SAct.Idx) : xArr m c i = argAt m c main_arg0 i := congrFun (V_main_arg0 m c) i
theorem h_apply (c : Dev nD) (i : SAct.Idx) : hArr m c i = argAt m c main_arg1 i := congrFun (V_main_arg1 m c) i
theorem c_apply (c : Dev nD) (i : SAct.Idx) : cArr m c i = argAt m c main_arg2 i := congrFun (V_main_arg2 m c) i

/-! ## The kernel's order of additions is the specification's -/

/-- The pre-activation over the arrays the region finds is the specification's of the argument arrays. -/
theorem kerPre_eq_pre (c : Dev nD) (r : Fin 8192) (j : Fin 4096) :
    kerPre (xArr m c) (hArr m c) (wxArr m c) (whArr m c) (bRow m c) r j
      = pre (argAt m c main_arg0) (argAt m c main_arg1)
        (stackT (argAt m c main_arg3) (argAt m c main_arg7) (argAt m c main_arg11) (argAt m c main_arg15)) (stackT (argAt m c main_arg5) (argAt m c main_arg9) (argAt m c main_arg13) (argAt m c main_arg17))
        (stackB (argAt m c main_arg4) (argAt m c main_arg8) (argAt m c main_arg12) (argAt m c main_arg16)) (stackB (argAt m c main_arg6) (argAt m c main_arg10) (argAt m c main_arg14) (argAt m c main_arg18)) r j := by
  unfold kerPre
  rw [bRow_apply]
  refine Eq.trans ?_ (pre_products_first _ _ _ _ _ _ r j)
  exact congrArg₂ (· + ·) (congrArg₂ (· + ·)
    (Finset.sum_congr rfl fun k _ => congrArg₂ (· * ·) (x_apply m c _) (wx_apply m c k j))
    (Finset.sum_congr rfl fun k _ => congrArg₂ (· * ·) (h_apply m c _) (wh_apply m c k j))) rfl

/-- The hidden-state function over the arrays the region finds is the specification's. -/
theorem kerHidArr_eq (c : Dev nD) :
    kerHidArr (xArr m c) (hArr m c) (cArr m c) (wxArr m c) (whArr m c) (bRow m c)
      = hidArr (argAt m c main_arg0) (argAt m c main_arg1) (argAt m c main_arg2)
        (stackT (argAt m c main_arg3) (argAt m c main_arg7) (argAt m c main_arg11) (argAt m c main_arg15)) (stackT (argAt m c main_arg5) (argAt m c main_arg9) (argAt m c main_arg13) (argAt m c main_arg17))
        (stackB (argAt m c main_arg4) (argAt m c main_arg8) (argAt m c main_arg12) (argAt m c main_arg16)) (stackB (argAt m c main_arg6) (argAt m c main_arg10) (argAt m c main_arg14) (argAt m c main_arg18)) := by
  funext i
  obtain ⟨p, q, rfl⟩ : ∃ (p : Fin 8192) (q : Fin 1024), i = ix2 p q := ⟨i 0, i 1, eq_ix2 i⟩
  show kerHid (xArr m c) (hArr m c) (cArr m c) (wxArr m c) (whArr m c) (bRow m c) p q = hidNext _ _ _ _ _ _ _ p q
  unfold kerHid hidNext kerCell cellNext
  rw [kerPre_eq_pre, kerPre_eq_pre, kerPre_eq_pre, kerPre_eq_pre, c_apply]

/-- The cell-state function likewise. -/
theorem kerCellArr_eq (c : Dev nD) :
    kerCellArr (xArr m c) (hArr m c) (cArr m c) (wxArr m c) (whArr m c) (bRow m c)
      = cellArr (argAt m c main_arg0) (argAt m c main_arg1) (argAt m c main_arg2)
        (stackT (argAt m c main_arg3) (argAt m c main_arg7) (argAt m c main_arg11) (argAt m c main_arg15)) (stackT (argAt m c main_arg5) (argAt m c main_arg9) (argAt m c main_arg13) (argAt m c main_arg17))
        (stackB (argAt m c main_arg4) (argAt m c main_arg8) (argAt m c main_arg12) (argAt m c main_arg16)) (stackB (argAt m c main_arg6) (argAt m c main_arg10) (argAt m c main_arg14) (argAt m c main_arg18)) := by
  funext i
  obtain ⟨p, q, rfl⟩ : ∃ (p : Fin 8192) (q : Fin 1024), i = ix2 p q := ⟨i 0, i 1, eq_ix2 i⟩
  show kerCell (xArr m c) (hArr m c) (cArr m c) (wxArr m c) (whArr m c) (bRow m c) p q = cellNext _ _ _ _ _ _ _ p q
  unfold kerCell cellNext
  rw [kerPre_eq_pre, kerPre_eq_pre, kerPre_eq_pre, c_apply]

/-! ## The run, read -/

/-- Every weakly fair execution terminates with the two results at the specification's next hidden and cell states of the
    argument arrays, and the arguments unchanged. -/
theorem run : θ_run defs (onTc (τ := τ) (main (F := Ideal))) ⟨m, fun _ => 0, ρ⟩ (fun r => ∀ c : Dev nD,
      r.2.mem ((c.tc : Thread nD τ).loc main_v10_0) = hidArr (argAt m c main_arg0) (argAt m c main_arg1) (argAt m c main_arg2)
        (stackT (argAt m c main_arg3) (argAt m c main_arg7) (argAt m c main_arg11) (argAt m c main_arg15)) (stackT (argAt m c main_arg5) (argAt m c main_arg9) (argAt m c main_arg13) (argAt m c main_arg17))
        (stackB (argAt m c main_arg4) (argAt m c main_arg8) (argAt m c main_arg12) (argAt m c main_arg16)) (stackB (argAt m c main_arg6) (argAt m c main_arg10) (argAt m c main_arg14) (argAt m c main_arg18))
      ∧ r.2.mem ((c.tc : Thread nD τ).loc main_v10_1) = cellArr (argAt m c main_arg0) (argAt m c main_arg1) (argAt m c main_arg2)
        (stackT (argAt m c main_arg3) (argAt m c main_arg7) (argAt m c main_arg11) (argAt m c main_arg15)) (stackT (argAt m c main_arg5) (argAt m c main_arg9) (argAt m c main_arg13) (argAt m c main_arg17))
        (stackB (argAt m c main_arg4) (argAt m c main_arg8) (argAt m c main_arg12) (argAt m c main_arg16)) (stackB (argAt m c main_arg6) (argAt m c main_arg10) (argAt m c main_arg14) (argAt m c main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c).1.trans ((final6 m c).trans (kerHidArr_eq m c)),
      (h c).2.1.trans ((final7 m c).trans (kerCellArr_eq m c)), (h c).2.2⟩) (run_read m ρ)

end Cert.KernelIdeal.HandValue

end
-- ==== Proof.RefValue.lean ====
/-
  The reference's two results, index by index, are the specification's next hidden state and next cell state of the argument arrays.
-/
import proofs.«143904_j80350248173766_1_alg».proof.Proof.Gen.ReferenceIdeal.Run
import proofs.«143904_j80350248173766_1_alg».proof.Proof.Gen.ReferenceIdeal.Read
import proofs.«143904_j80350248173766_1_alg».proof.Proof.Spec
import proofs.«143904_j80350248173766_1_alg».proof.Proof.LibPlainDot
import Idealize.ShloMosaic.Lib.IdealHost

noncomputable section

namespace Cert.ReferenceIdeal.RefValue

open Cert.ReferenceIdeal
open Idealize.ShloMosaic Idealize.ShloMosaic.ValueIdx

/-- Four gate weight matrices stacked along the rows and transposed: contraction axis first. -/
abbrev stackT (a b c d : FVec Ideal S1024x1024 .f32) : FVec Ideal S1024x4096 .f32 :=
  transpose S1024x4096 [1, 0] (concatenate S4096x1024 0 [⟨S1024x1024, a⟩, ⟨S1024x1024, b⟩, ⟨S1024x1024, c⟩, ⟨S1024x1024, d⟩] Facts₀.concatenates_S1024x1024_S1024x1024_S1024x1024_S1024x1024_S4096x1024_d0) Facts₀.transposes_S4096x1024_S1024x4096_1_0

/-- Four gate biases stacked. -/
abbrev stackB (a b c d : FVec Ideal S1024 .f32) : FVec Ideal S4096 .f32 :=
  concatenate S4096 0 [⟨S1024, a⟩, ⟨S1024, b⟩, ⟨S1024, c⟩, ⟨S1024, d⟩] Facts₀.concatenates_S1024_S1024_S1024_S1024_S4096_d0

section pointwise

open Cert.LstmSpec

variable (x0 x1 x2 : FVec Ideal S8192x1024 .f32) (x3 x5 x7 x9 x11 x13 x15 x17 : FVec Ideal S1024x1024 .f32)
  (x4 x6 x8 x10 x12 x14 x16 x18 : FVec Ideal S1024 .f32)

/-- The product of the input activations with the stacked input weights at row p, column j: the sum over the contracted axis. -/
theorem dot_x_apply (p : Fin 8192) (j : Fin 4096) :
    Read.val_main_v5 (F := Ideal) x0 x3 x7 x11 x15 (ix2 p j) = ∑ k : Fin 1024, x0 (ix2 p k) * stackT x3 x7 x11 x15 (ix2 k j) := by
  rw [Read.val_main_v5_apply]
  refine Finset.sum_congr rfl fun k _ => ?_
  have hl : Read.lidx_main_v5 (ix2 p j) k = ix2 p k := funext fun a => match a with
    | ⟨0, _⟩ => rfl
    | ⟨1, _⟩ => rfl
  have hr : Read.ridx_main_v5 (ix2 p j) k = ix2 k j := funext fun a => match a with
    | ⟨0, _⟩ => rfl
    | ⟨1, _⟩ => rfl
  rw [hl, hr]
  rfl

/-- The product of the hidden state with the stacked recurrent weights at row p, column j. -/
theorem dot_h_apply (p : Fin 8192) (j : Fin 4096) :
    Read.val_main_v10 (F := Ideal) x1 x5 x9 x13 x17 (ix2 p j) = ∑ k : Fin 1024, x1 (ix2 p k) * stackT x5 x9 x13 x17 (ix2 k j) := by
  rw [Read.val_main_v10_apply]
  refine Finset.sum_congr rfl fun k _ => ?_
  have hl : Read.lidx_main_v10 (ix2 p j) k = ix2 p k := funext fun a => match a with
    | ⟨0, _⟩ => rfl
    | ⟨1, _⟩ => rfl
  have hr : Read.ridx_main_v10 (ix2 p j) k = ix2 k j := funext fun a => match a with
    | ⟨0, _⟩ => rfl
    | ⟨1, _⟩ => rfl
  rw [hl, hr]
  rfl

/-- The input bias laid along the columns reads the stacked bias at the column. -/
theorem bias_x_apply (p : Fin 8192) (j : Fin 4096) :
    Read.val_main_v7 (F := Ideal) x4 x8 x12 x16 (ix2 p j) = stackB x4 x8 x12 x16 (ix1 j) := by
  unfold Read.val_main_v7 Read.val_main_v6 Read.val_main_v2
  exact Cert.LibPlainDot.rowBroadcastInDim_apply _ _ _ p j

/-- The recurrent bias laid along the columns reads the stacked bias at the column. -/
theorem bias_h_apply (p : Fin 8192) (j : Fin 4096) :
    Read.val_main_v13 (F := Ideal) x6 x10 x14 x18 (ix2 p j) = stackB x6 x10 x14 x18 (ix1 j) := by
  unfold Read.val_main_v13 Read.val_main_v12 Read.val_main_v3
  exact Cert.LibPlainDot.rowBroadcastInDim_apply _ _ _ p j

/-- The shared pre-activation array at row p, column j is the specification's, the four terms added in its order. -/
theorem pre_apply (p : Fin 8192) (j : Fin 4096) :
    Read.val_main_v14 (F := Ideal) x0 x1 x3 x4 x5 x6 x7 x8 x9 x10 x11 x12 x13 x14 x15 x16 x17 x18 (ix2 p j) = pre x0 x1 (stackT x3 x7 x11 x15) (stackT x5 x9 x13 x17) (stackB x4 x8 x12 x16) (stackB x6 x10 x14 x18) p j := by
  rw [Read.val_main_v14_apply, Read.val_main_v11_apply, Read.val_main_v8_apply, dot_x_apply, dot_h_apply, bias_x_apply, bias_h_apply]
  rfl

/-- The first slice is the input gate's columns. -/
theorem gate_i_apply (p : Fin 8192) (q : Fin 1024) :
    Read.val_main_v15 (F := Ideal) x0 x1 x3 x4 x5 x6 x7 x8 x9 x10 x11 x12 x13 x14 x15 x16 x17 x18 (ix2 p q) = pre x0 x1 (stackT x3 x7 x11 x15) (stackT x5 x9 x13 x17) (stackB x4 x8 x12 x16) (stackB x6 x10 x14 x18) p (colI q) := by
  rw [Read.val_main_v15_apply, ← pre_apply]
  refine congrArg _ (funext fun a => ?_)
  match a with
  | ⟨0, _⟩ => rfl
  | ⟨1, _⟩ => exact Fin.ext rfl

/-- The second slice is the forget gate's columns. -/
theorem gate_f_apply (p : Fin 8192) (q : Fin 1024) :
    Read.val_main_v16 (F := Ideal) x0 x1 x3 x4 x5 x6 x7 x8 x9 x10 x11 x12 x13 x14 x15 x16 x17 x18 (ix2 p q) = pre x0 x1 (stackT x3 x7 x11 x15) (stackT x5 x9 x13 x17) (stackB x4 x8 x12 x16) (stackB x6 x10 x14 x18) p (colF q) := by
  rw [Read.val_main_v16_apply, ← pre_apply]
  refine congrArg _ (funext fun a => ?_)
  match a with
  | ⟨0, _⟩ => rfl
  | ⟨1, _⟩ => exact Fin.ext (Nat.add_comm 1024 q.val)

/-- The third slice is the output gate's columns. -/
theorem gate_o_apply (p : Fin 8192) (q : Fin 1024) :
    Read.val_main_v17 (F := Ideal) x0 x1 x3 x4 x5 x6 x7 x8 x9 x10 x11 x12 x13 x14 x15 x16 x17 x18 (ix2 p q) = pre x0 x1 (stackT x3 x7 x11 x15) (stackT x5 x9 x13 x17) (stackB x4 x8 x12 x16) (stackB x6 x10 x14 x18) p (colO q) := by
  rw [Read.val_main_v17_apply, ← pre_apply]
  refine congrArg _ (funext fun a => ?_)
  match a with
  | ⟨0, _⟩ => rfl
  | ⟨1, _⟩ => exact Fin.ext (Nat.add_comm 2048 q.val)

/-- The fourth slice is the candidate's columns. -/
theorem gate_g_apply (p : Fin 8192) (q : Fin 1024) :
    Read.val_main_v18 (F := Ideal) x0 x1 x3 x4 x5 x6 x7 x8 x9 x10 x11 x12 x13 x14 x15 x16 x17 x18 (ix2 p q) = pre x0 x1 (stackT x3 x7 x11 x15) (stackT x5 x9 x13 x17) (stackB x4 x8 x12 x16) (stackB x6 x10 x14 x18) p (colG q) := by
  rw [Read.val_main_v18_apply, ← pre_apply]
  refine congrArg _ (funext fun a => ?_)
  match a with
  | ⟨0, _⟩ => rfl
  | ⟨1, _⟩ => exact Fin.ext (Nat.add_comm 3072 q.val)

/-- One over one plus the exponential of the negation, in the host's operations, is the logistic function. -/
theorem sigmoid_spelling (a b z : Ideal .f32) (ha : a = 1) (hb : b = 1) :
    FloatOps.hostDivf a (FloatOps.addf b (FloatOps.hostUnary .exp (FloatOps.hostNegf z))) = Ideal.logistic z := by
  subst ha hb
  rfl

theorem one_v21 (i : S8192x1024.Idx) : Read.val_main_v21 (F := Ideal) i = 1 := by
  rw [Read.val_main_v21_apply, Read.val_main_cst_apply]
  exact Ideal.ofBits_one_f32

theorem one_v23 (i : S8192x1024.Idx) : Read.val_main_v23 (F := Ideal) i = 1 := by
  rw [Read.val_main_v23_apply, Read.val_main_cst_0_apply]
  exact Ideal.ofBits_one_f32

theorem one_v27 (i : S8192x1024.Idx) : Read.val_main_v27 (F := Ideal) i = 1 := by
  rw [Read.val_main_v27_apply, Read.val_main_cst_1_apply]
  exact Ideal.ofBits_one_f32

theorem one_v29 (i : S8192x1024.Idx) : Read.val_main_v29 (F := Ideal) i = 1 := by
  rw [Read.val_main_v29_apply, Read.val_main_cst_2_apply]
  exact Ideal.ofBits_one_f32

theorem one_v33 (i : S8192x1024.Idx) : Read.val_main_v33 (F := Ideal) i = 1 := by
  rw [Read.val_main_v33_apply, Read.val_main_cst_3_apply]
  exact Ideal.ofBits_one_f32

theorem one_v35 (i : S8192x1024.Idx) : Read.val_main_v35 (F := Ideal) i = 1 := by
  rw [Read.val_main_v35_apply, Read.val_main_cst_4_apply]
  exact Ideal.ofBits_one_f32

/-- The input gate after the logistic function. -/
theorem sig_i_apply (p : Fin 8192) (q : Fin 1024) :
    Read.val_main_v24 (F := Ideal) x0 x1 x3 x4 x5 x6 x7 x8 x9 x10 x11 x12 x13 x14 x15 x16 x17 x18 (ix2 p q) = Ideal.logistic (pre x0 x1 (stackT x3 x7 x11 x15) (stackT x5 x9 x13 x17) (stackB x4 x8 x12 x16) (stackB x6 x10 x14 x18) p (colI q)) := by
  rw [Read.val_main_v24_apply, Read.val_main_v22_apply, Read.val_main_v20_apply, Read.val_main_v19_apply, gate_i_apply]
  exact sigmoid_spelling _ _ _ (one_v23 _) (one_v21 _)

/-- The forget gate after the logistic function. -/
theorem sig_f_apply (p : Fin 8192) (q : Fin 1024) :
    Read.val_main_v30 (F := Ideal) x0 x1 x3 x4 x5 x6 x7 x8 x9 x10 x11 x12 x13 x14 x15 x16 x17 x18 (ix2 p q) = Ideal.logistic (pre x0 x1 (stackT x3 x7 x11 x15) (stackT x5 x9 x13 x17) (stackB x4 x8 x12 x16) (stackB x6 x10 x14 x18) p (colF q)) := by
  rw [Read.val_main_v30_apply, Read.val_main_v28_apply, Read.val_main_v26_apply, Read.val_main_v25_apply, gate_f_apply]
  exact sigmoid_spelling _ _ _ (one_v29 _) (one_v27 _)

/-- The output gate after the logistic function. -/
theorem sig_o_apply (p : Fin 8192) (q : Fin 1024) :
    Read.val_main_v36 (F := Ideal) x0 x1 x3 x4 x5 x6 x7 x8 x9 x10 x11 x12 x13 x14 x15 x16 x17 x18 (ix2 p q) = Ideal.logistic (pre x0 x1 (stackT x3 x7 x11 x15) (stackT x5 x9 x13 x17) (stackB x4 x8 x12 x16) (stackB x6 x10 x14 x18) p (colO q)) := by
  rw [Read.val_main_v36_apply, Read.val_main_v34_apply, Read.val_main_v32_apply, Read.val_main_v31_apply, gate_o_apply]
  exact sigmoid_spelling _ _ _ (one_v35 _) (one_v33 _)

/-- The next cell state at row p, hidden unit q. -/
theorem cell_apply (p : Fin 8192) (q : Fin 1024) :
    Read.val_main_v40 (F := Ideal) x0 x1 x2 x3 x4 x5 x6 x7 x8 x9 x10 x11 x12 x13 x14 x15 x16 x17 x18 (ix2 p q) = cellNext x0 x1 x2 (stackT x3 x7 x11 x15) (stackT x5 x9 x13 x17) (stackB x4 x8 x12 x16) (stackB x6 x10 x14 x18) p q := by
  rw [Read.val_main_v40_apply, Read.val_main_v38_apply, Read.val_main_v39_apply, Read.val_main_v37_apply, sig_f_apply, sig_i_apply, gate_g_apply]
  rfl

/-- The next hidden state at row p, hidden unit q. -/
theorem hid_apply (p : Fin 8192) (q : Fin 1024) :
    Read.val_main_v42 (F := Ideal) x0 x1 x2 x3 x4 x5 x6 x7 x8 x9 x10 x11 x12 x13 x14 x15 x16 x17 x18 (ix2 p q) = hidNext x0 x1 x2 (stackT x3 x7 x11 x15) (stackT x5 x9 x13 x17) (stackB x4 x8 x12 x16) (stackB x6 x10 x14 x18) p q := by
  rw [Read.val_main_v42_apply, Read.val_main_v41_apply, sig_o_apply, cell_apply]
  rfl

end pointwise

variable (m : (ℓ : Loc nD τ sig) → Buf (Elt Ideal) ℓ) (c : Dev nD)

/-- An argument array as launched. -/
abbrev argAt (m : (ℓ : Loc nD τ sig) → Buf (Elt Ideal) ℓ) (c : Dev nD) (b : Ref sig .tc) : Buf (Elt Ideal) ((c.tc : Thread nD τ).loc b) :=
  m ((c.tc : Thread nD τ).loc b)

/-- The first result (the next hidden state). -/
theorem res_out0_eq : Value.res_out0 (F := Ideal) m c
    = Cert.LstmSpec.hidArr (argAt m c main_arg0) (argAt m c main_arg1) (argAt m c main_arg2)
        (stackT (argAt m c main_arg3) (argAt m c main_arg7) (argAt m c main_arg11) (argAt m c main_arg15)) (stackT (argAt m c main_arg5) (argAt m c main_arg9) (argAt m c main_arg13) (argAt m c main_arg17))
        (stackB (argAt m c main_arg4) (argAt m c main_arg8) (argAt m c main_arg12) (argAt m c main_arg16)) (stackB (argAt m c main_arg6) (argAt m c main_arg10) (argAt m c main_arg14) (argAt m c main_arg18)) := by
  funext i
  obtain ⟨p, q, rfl⟩ : ∃ (p : Fin 8192) (q : Fin 1024), i = ix2 p q := ⟨i 0, i 1, eq_ix2 i⟩
  rw [Cert.LstmSpec.hidArr_apply]
  refine (congrFun (Read.val_main_v42_eq (F := Ideal) m c) (ix2 p q)).trans ?_
  exact hid_apply _ _ _ _ _ _ _ _ _ _ _ _ _ _ _ _ _ _ _ p q

/-- The second result (the next cell state). -/
theorem res_out1_eq : Value.res_out1 (F := Ideal) m c
    = Cert.LstmSpec.cellArr (argAt m c main_arg0) (argAt m c main_arg1) (argAt m c main_arg2)
        (stackT (argAt m c main_arg3) (argAt m c main_arg7) (argAt m c main_arg11) (argAt m c main_arg15)) (stackT (argAt m c main_arg5) (argAt m c main_arg9) (argAt m c main_arg13) (argAt m c main_arg17))
        (stackB (argAt m c main_arg4) (argAt m c main_arg8) (argAt m c main_arg12) (argAt m c main_arg16)) (stackB (argAt m c main_arg6) (argAt m c main_arg10) (argAt m c main_arg14) (argAt m c main_arg18)) := by
  funext i
  obtain ⟨p, q, rfl⟩ : ∃ (p : Fin 8192) (q : Fin 1024), i = ix2 p q := ⟨i 0, i 1, eq_ix2 i⟩
  rw [Cert.LstmSpec.cellArr_apply]
  refine (congrFun (Read.val_main_v40_eq (F := Ideal) m c) (ix2 p q)).trans ?_
  exact cell_apply _ _ _ _ _ _ _ _ _ _ _ _ _ _ _ _ _ _ _ p q

end Cert.ReferenceIdeal.RefValue

end
-- ==== Proof.lean ====
/-
  The certificate of the fused LSTM-cell kernel against its jnp reference.

  Over the extended reals both programs compute, for every batch row p and hidden unit q,
      c'(p,q) = σ(z_f)·c(p,q) + σ(z_i)·tanh(z_g),   h'(p,q) = σ(z_o)·tanh(c'(p,q)),
  where z_i, z_f, z_o, z_g are columns q, q+1024, q+2048, q+3072 of  x·Wxᵀ + h·Whᵀ + bx + bh  with the four gates' weights and
  biases stacked. The kernel adds the two products first and the two biases to each other first, the reference adds the four
  terms left to right: the same sum, by commutativity and associativity of addition on the extended reals. The kernel's one
  logistic operation is the reference's 1 / (1 + exp(−z)), its narrowing of the operands to a shorter format is the identity,
  and its matrix product into a zero accumulator is the reference's contraction. No finiteness is used.

  The three frames: the kernel's program (at either instance) is ten host operations that write no argument and one pipelined
  region whose body loads its input blocks and stores its two output blocks whole; the reference is straight-line host code.
  The idealization rewrote nothing, so there is nothing to preserve.
-/
import proofs.«143904_j80350248173766_1_alg».proof.Defs
import proofs.«143904_j80350248173766_1_alg».proof.Proof.Gen.Kernel
import proofs.«143904_j80350248173766_1_alg».proof.Proof.Gen.KernelIdeal
import proofs.«143904_j80350248173766_1_alg».proof.Proof.Gen.ReferenceIdeal
import proofs.«143904_j80350248173766_1_alg».proof.Proof.Gen.Pre_finite_inputs
import proofs.«143904_j80350248173766_1_alg».proof.Proof.Gen.ReferenceIdeal.Run
import proofs.«143904_j80350248173766_1_alg».proof.Proof.KFrame
import proofs.«143904_j80350248173766_1_alg».proof.Proof.KIFrame
import proofs.«143904_j80350248173766_1_alg».proof.Proof.KIValue
import proofs.«143904_j80350248173766_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_k : Cert.frame_Kernel := fun m ρ _ => Cert.Kernel.Hand.frame m ρ

/-- So does its reading over the extended reals. -/
theorem frame_ki : Cert.frame_KernelIdeal := fun m ρ _ => Cert.KernelIdeal.Hand.frame m ρ

/-- The reference is host code: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten. -/
theorem preserves : Cert.preserves_Kernel_KernelIdeal := trivial

/-- The stacked weights the two programs build from equal pieces are equal. -/
theorem stackT_agree {a a' b b' c c' d d' : FVec Ideal Cert.KernelIdeal.S1024x1024 .f32} (ea : a = a') (eb : b = b') (ec : c = c') (ed : d = d') :
    Cert.ReferenceIdeal.RefValue.stackT a b c d = Cert.KernelIdeal.HandValue.stackT a' b' c' d' := by
  subst ea eb ec ed; rfl

/-- So are the stacked biases. -/
theorem stackB_agree {a a' b b' c c' d d' : FVec Ideal Cert.KernelIdeal.S1024 .f32} (ea : a = a') (eb : b = b') (ec : c = c') (ed : d = d') :
    Cert.ReferenceIdeal.RefValue.stackB a b c d = Cert.KernelIdeal.HandValue.stackB a' b' c' d' := by
  subst ea eb ec ed; rfl

open Cert.LstmSpec in
/-- The specification's results of equal arrays are equal. -/
theorem hidArr_congr {x x' h h' c c' : SAct.Idx → EReal} {wx wx' wh wh' : SWt.Idx → EReal} {bx bx' bh bh' : SBias.Idx → EReal}
    (e0 : x = x') (e1 : h = h') (e2 : c = c') (e3 : wx = wx') (e4 : wh = wh') (e5 : bx = bx') (e6 : bh = bh') :
    hidArr x h c wx wh bx bh = hidArr x' h' c' wx' wh' bx' bh' := by
  subst e0 e1 e2 e3 e4 e5 e6; rfl

open Cert.LstmSpec in
theorem cellArr_congr {x x' h h' c c' : SAct.Idx → EReal} {wx wx' wh wh' : SWt.Idx → EReal} {bx bx' bh bh' : SBias.Idx → EReal}
    (e0 : x = x') (e1 : h = h') (e2 : c = c') (e3 : wx = wx') (e4 : wh = wh') (e5 : bx = bx') (e6 : bh = bh') :
    cellArr x h c wx wh bx bh = cellArr x' h' c' wx' wh' bx' bh' := by
  subst e0 e1 e2 e3 e4 e5 e6; rfl

/-- From memories agreeing on the nineteen arguments both programs end with the specification's next hidden state and next
    cell state of those arguments. -/
theorem algebraic : Cert.algebraic_KernelIdeal_ReferenceIdeal := by
  intro m ρ m' ρ' _ hagree
  refine ⟨_, _, Cert.KernelIdeal.HandValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.RefValue.res_out0_eq m' c).trans ?_
    obtain ⟨h0, h1, h2, h3, h4, h5, h6, h7, h8, h9, h10, h11, h12, h13, h14, h15, h16, h17, h18⟩ := hagree c
    exact hidArr_congr h0 h1 h2 (stackT_agree h3 h7 h11 h15) (stackT_agree h5 h9 h13 h17) (stackB_agree h4 h8 h12 h16) (stackB_agree h6 h10 h14 h18)
  · refine (Cert.ReferenceIdeal.RefValue.res_out1_eq m' c).trans ?_
    obtain ⟨h0, h1, h2, h3, h4, h5, h6, h7, h8, h9, h10, h11, h12, h13, h14, h15, h16, h17, h18⟩ := hagree c
    exact cellArr_congr h0 h1 h2 (stackT_agree h3 h7 h11 h15) (stackT_agree h5 h9 h13 h17) (stackB_agree h4 h8 h12 h16) (stackB_agree h6 h10 h14 h18)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
